-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg1 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S64x256x1024 .f32) (main_arg1 : IVec S64 32) (main_arg2 : FVec F S16x1024x4096 .f32) (main_arg3 : FVec F S16x4096 .f32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S16x1024x4096 .f32 := Host.absf main_arg2
  let main_cst_0 : FVec F S_ .f32 := constant S_ .f32 0x7F800000#32
  let main_v5 : FVec F S16x1024x4096 .f32 := broadcastInDim S16x1024x4096 ![] bcast_S_S16x1024x4096 main_cst_0
  let main_v6 : IVec S16x1024x4096 1 := cmpf .olt main_v4 main_v5
  let main_c_1 : IVec S_ 1 := constantI S_ 1 1#1
  let main_v7 : IVec S_ 1 := (fun x v => Host.reduce IntOp.andi x v reducesTo_S16x1024x4096_S_d0_1_2 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 32 := constantI S_ 32 16#32
  fn_part1 (F := F) main_arg1 main_v13 main_v15 main_c_5
-- ==== Kernel.lean ====
abbrev S64x256x1024 : Shape := ⟨3, ![64, 256, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩
abbrev S64x1 : Shape := ⟨2, ![64, 1]⟩
abbrev S16x1x4096 : Shape := ⟨3, ![16, 1, 4096]⟩
abbrev S64x256x4096 : Shape := ⟨3, ![64, 256, 4096]⟩
abbrev S1x256x1024 : Shape := ⟨3, ![1, 256, 1024]⟩
abbrev S1 : Shape := ⟨1, ![1]⟩
abbrev S1x1024x2048 : Shape := ⟨3, ![1, 1024, 2048]⟩
abbrev S1x1x2048 : Shape := ⟨3, ![1, 1, 2048]⟩
abbrev S1x256x2048 : Shape := ⟨3, ![1, 256, 2048]⟩
abbrev S256x1024 : Shape := ⟨2, ![256, 1024]⟩
abbrev S1024x2048 : Shape := ⟨2, ![1024, 2048]⟩
abbrev S256x2048 : Shape := ⟨2, ![256, 2048]⟩
abbrev S1x2048 : Shape := ⟨2, ![1, 2048]⟩

abbrev nBuf : Space → Nat
  | .hbm => 25
  | .vmem => 8
  | .smem => 2
  | _ => 0

abbrev bufTy : (tb : Table) → Fin (tcTables nBuf tb) → BufTy
  | .hbm, ⟨0, _⟩ => ⟨S64x256x1024, .f32⟩
  | .hbm, ⟨1, _⟩ => ⟨S64, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S64x256x1024, .bf16⟩
  | .hbm, ⟨23, _⟩ => ⟨S16x1x4096, .f32⟩
  | .hbm, ⟨24, _⟩ => ⟨S64x256x4096, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x256x2048, .f32⟩
  | .local _ .vmem, ⟨7, _⟩ => ⟨S1x256x2048, .f32⟩
  | .local _ .smem, ⟨0, _⟩ => ⟨S64, .i32⟩
  | .local _ .smem, ⟨1, _⟩ => ⟨S64, .i32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64 : S_.BroadcastsInDim S64 (![] : Fin 0 → Fin S64.rank)
  bcast_S64_S64x1_0 : S64.BroadcastsInDim S64x1 (![0] : Fin 1 → Fin S64x1.rank)
  bitsLt_bf16_f32 : FTy.bits .bf16 < FTy.bits .f32
  shapeCasts_S16x4096_S16x1x4096 : S16x4096.ShapeCasts S16x1x4096
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  gather_S64_S64x1_S64_n_0_n_n_0_1_1_wf : GatherDims.WF S64 S64x1 S64 [] [0] [] [0] [] 1 ![1]
  dot_S256x1024_S1024x2048_S256x2048_1_0_0_1_n_n_wf : DotDims.WF S256x1024 S1024x2048 S256x2048 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev spec0_0 : Pipeline.WinSpec sig grid0.rank :=
  Pipeline.WinSpec.ofSpec (Memref.whole main_v9) S1x256x1024.size reads0_0 false false 2 stage0_0 sem0_0 nbuf0_0 hstage0_0

abbrev spec0_1 : Pipeline.WinSpec sig grid0.rank :=
  Pipeline.WinSpec.ofSpec (Memref.whole main_arg2) S1x1024x2048.size reads0_1 false false 2 stage0_1 sem0_1 nbuf0_1 hstage0_1

abbrev spec0_2 : Pipeline.WinSpec sig grid0.rank :=
  Pipeline.WinSpec.ofSpec (Memref.whole main_v10) S1x1x2048.size reads0_2 false false 2 stage0_2 sem0_2 nbuf0_2 hstage0_2

abbrev spec0_3 : Pipeline.WinSpec sig grid0.rank :=
  Pipeline.WinSpec.ofSpec (Memref.whole main_v11) S1x256x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x256x1024.size a ≤ S64x256x1024.size a), EltTy.bits .bf16 = 32 ∨ (Rect.block (s := S64x256x1024) S1x256x1024.size (cc0_transform_0 k0_off1_inb numel1_S1 pf i) h).WholeWords (EltTy.packing .bf16)) ∧
  (∀ i : grid0.Coords, ∃ h : (∀ a, (cc0_transform_1 k0_off1_inb numel1_S1 pf i a + 1) * S1x1024x2048.size a ≤ S16x1024x4096.size a), EltTy.bits .f32 = 32 ∨ (Rect.block (s := S16x1024x4096) S1x1024x2048.size (cc0_transform_1 k0_off1_inb numel1_S1 pf i) h).WholeWords (EltTy.packing .f32)) ∧
  (∀ i : grid0.Coords, ∃ h : (∀ a, (cc0_transform_2 k0_off1_inb numel1_S1 pf i a + 1) * S1x1x2048.size a ≤ S16x1x4096.size a), EltTy.bits .f32 = 32 ∨ (Rect.block (s := S16x1x4096) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x256x2048.size a ≤ S64x256x4096.size a), EltTy.bits .f32 = 32 ∨ (Rect.block (s := S64x256x4096) S1x256x2048.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x256x1024 : Shape := ⟨3, ![64, 256, 1024]⟩
abbrev S64 : Shape := ⟨1, ![64]⟩
abbrev S16x1024x4096 : Shape := ⟨3, ![16, 1024, 4096]⟩
abbrev S16x4096 : Shape := ⟨2, ![16, 4096]⟩
abbrev S_ : Shape := ⟨0, ![]⟩
abbrev S64x1 : Shape := ⟨2, ![64, 1]⟩
abbrev S64x1024x4096 : Shape := ⟨3, ![64, 1024, 4096]⟩
abbrev S64x4096 : Shape := ⟨2, ![64, 4096]⟩
abbrev S64x256x4096 : Shape := ⟨3, ![64, 256, 4096]⟩
abbrev S64x1x4096 : Shape := ⟨3, ![64, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S64, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x1024x4096, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x4096, .f32⟩
  | .hbm, ⟨22, _⟩ => ⟨S64x256x4096, .f32⟩
  | .hbm, ⟨23, _⟩ => ⟨S64x1x4096, .f32⟩
  | .hbm, ⟨24, _⟩ => ⟨S64x256x4096, .f32⟩
  | .hbm, ⟨25, _⟩ => ⟨S64x256x4096, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x4096_S64x1x4096_0_2 : S64x4096.BroadcastsInDim S64x1x4096 (![0, 2] : Fin 2 → Fin S64x1x4096.rank)
  bcast_S64x1x4096_S64x256x4096_0_1_2 : S64x1x4096.BroadcastsInDim S64x256x4096 (![0, 1, 2] : Fin 3 → Fin S64x256x4096.rank)
  gather_S16x1024x4096_S64x1_S64x1024x4096_12_0_n_n_0_1_110244096_wf : GatherDims.WF S16x1024x4096 S64x1 S64x1024x4096 [1, 2] [0] [] [0] [] 1 ![1, 1024, 4096]
  gather_S16x4096_S64x1_S64x4096_1_0_n_n_0_1_14096_wf : GatherDims.WF S16x4096 S64x1 S64x4096 [1] [0] [] [0] [] 1 ![1, 4096]
  dot_S64x256x1024_S64x1024x4096_S64x256x4096_2_1_1_2_0_0_wf : DotDims.WF S64x256x1024 S64x1024x4096 S64x256x4096 [2] [1] [1] [2] [0] [0]

variable [Facts₀]

def gather_S16x1024x4096_S64x1_S64x1024x4096_12_0_n_n_0_1_110244096 : GatherDims S16x1024x4096 S64x1 S64x1024x4096 where
  offsetDims := [1, 2]
  collapsedSliceDims := [0]
  operandBatchingDims := []
  startIndicesBatchingDims := []
  startIndexMap := [0]
  indexVectorDim := 1
  sliceSizes := ![1, 1024, 4096]
  wf := gather_S16x1024x4096_S64x1_S64x1024x4096_12_0_n_n_0_1_110244096_wf
def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def dot_S64x256x1024_S64x1024x4096_S64x256x4096_2_1_1_2_0_0 : DotDims S64x256x1024 S64x1024x4096 S64x256x4096 where
  lhsContracting := [2]
  rhsContracting := [1]
  lhsNonContracting := [1]
  rhsNonContracting := [2]
  lhsBatch := [0]
  rhsBatch := [0]
  wf := dot_S64x256x1024_S64x1024x4096_S64x256x4096_2_1_1_2_0_0_wf

class Facts : Prop extends Facts₀ where

variable [Facts]
-- ==== Proof.LibSort2.lean ====
/-
  General lemma: a stable two-operand sort along the one axis of a rank-1 shape (jnp's `argsort`: the keys sorted
  carrying a second table along) reads BOTH tables through one self-map of the positions: `sortedFrom` of the
  comparator on the pairs. Sorted position `k` holds the pair that stood at position `σ k`. The self-map is a
  bijection (Lib/SortFacts.lean: `sortedFrom_injective`, `sortedFrom_surjective`), whatever the comparator.
-/
import Idealize.ShloMosaic.Lib.SortFacts

namespace Cert.LibSort2

open Idealize.ShloMosaic

/-- "The pair at position `k` sorts before the pair at position `k'`", for tables `x`, `y` over a rank-1 shape. -/
def pairBefore {n : Nat} {α β : Type} (cmp : α × β → α × β → BitVec 1) (x : (⟨1, ![n]⟩ : Shape).Idx → α)
    (y : (⟨1, ![n]⟩ : Shape).Idx → β) (k k' : Fin n) : Bool :=
  cmp (x (Shape.Idx.ofFin k), y (Shape.Idx.ofFin k)) (x (Shape.Idx.ofFin k'), y (Shape.Idx.ofFin k')) == 1#1

/-- The sorted first table at position `j` is the first table at the position the sort put there. -/
theorem sort2_fst_rank1 {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j = x (Shape.Idx.ofFin (sortedFrom (pairBefore cmp x y) (j 0))) := by
  unfold Host.sort2 pairBefore
  simp

/-- The second table carried along: at position `j` it is the second table at the same source position. -/
theorem sort2_snd_rank1 {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (Shape.Idx.ofFin (sortedFrom (pairBefore cmp x y) (j 0))) := by
  unfold Host.sort2 pairBefore
  simp

end Cert.LibSort2
-- ==== Proof.Tables.lean ====
/-
  The two tables the kernel's index maps read, as functions of the category words.

  Before the kernel runs, the program clamps every category word into 0 … 15 (`clipped`), sorts the positions 0 … 63
  stably by clamped word carrying the positions along — the carried table is `perm`: sorted position `i` holds the
  sample `perm i` — and reads the clamped words back in sorted order (`sorted[i] = clipped[perm i]`). At grid
  point (h, i) the kernel works on sample `perm i` with the expert `sorted[i]`.

  All that the certificate needs of the sort is that `perm` is a BIJECTION of the 64 positions (every sample is
  worked on, and consecutive points work on different samples); that the words come out in order plays no part.
  Both tables are in range whatever the category words are — a position is below 64, a clamped word at most 15 — so
  every block the pipeline fetches or writes back lies inside its array.
-/
import proofs.«422944_j9809705304280_2_alg».proof.Proof.Gen.KernelIdeal.Frame
import proofs.«422944_j9809705304280_2_alg».proof.Proof.LibSort2
import Idealize.ShloMosaic.Lib.StableHlo.Run
import Idealize.ShloMosaic.Lib.StableHlo.Predicate
import Idealize.ShloMosaic.Lib.Affine

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Idealize.ShloMosaic.StableHlo.Predicate

variable {F : FTy → Type} [FloatOps F]
variable (m : (ℓ : Loc nD τ sig) → Buf (Elt F) ℓ)

/-! ## What the host operations before the kernel leave -/

/-- The category words as launched (the program runs on one device). -/
abbrev cats : IVec S64 32 := m (0, Proc.devRef .tc main_arg1)

/-- Each category word clamped into 0 … 15: the larger of it and 0, then the smaller of that and 15. -/
def clipped : IVec S64 32 :=
  minsi (broadcastInDim S64 ![] bcast_S_S64 (constantI S_ 32 15#32))
    (maxsi (broadcastInDim S64 ![] bcast_S_S64 (constantI S_ 32 0#32)) (cats m))

/-- The two tables at their literal type: 64 words each. -/
abbrev tab0 : IVec S64 32 := tbl m 0
abbrev tab1 : IVec S64 32 := tbl m 1

/-- The first table: the positions carried through the stable sort of the clamped words. -/
theorem tbl0_eq : tab0 m = (Host.sort2 S64 0 comparator_i32_i32_d0 (clipped m) (iotaInDim S64 32 0)).2 := by
  unfold tab0 tbl clipped cats
  show V m 0 main_v1 = _
  dsimp only [V]
  simp only [hostOps0, hostOps0_1, hostOps0_2, hostOps0_3, List.flatten_cons, List.flatten_nil, List.append_nil, List.cons_append, List.nil_append]
  after_results_simp
  simp only [TRef.ofBuf, TRef.toBuf, cast_eq, id]

set_option maxHeartbeats 1000000 in
/-- The second table: the clamped words gathered at the first table's entries (each entry, were it negative, counted
    from the end; then read signed and clamped into the table — neither changes a position below 64). -/
theorem tbl1_eq : tab1 m = Host.gather gather_S64_S64x1_S64_n_0_n_n_0_1_1 (clipped m)
    (broadcastInDim S64x1 ![0] bcast_S64_S64x1_0
      (select (cmpi .slt (tab0 m) (broadcastInDim S64 ![] bcast_S_S64 (constantI S_ 32 0#32)))
        (addi (tab0 m) (broadcastInDim S64 ![] bcast_S_S64 (constantI S_ 32 64#32))) (tab0 m))) := by
  unfold tab0 tab1 tbl clipped cats
  show V m 0 main_v8 = Host.gather gather_S64_S64x1_S64_n_0_n_n_0_1_1 _
    (broadcastInDim S64x1 ![0] bcast_S64_S64x1_0
      (select (cmpi .slt (@id (IVec S64 32) (V m 0 main_v1)) (broadcastInDim S64 ![] bcast_S_S64 (constantI S_ 32 0#32)))
        (addi (@id (IVec S64 32) (V m 0 main_v1)) (broadcastInDim S64 ![] bcast_S_S64 (constantI S_ 32 64#32))) (@id (IVec S64 32) (V m 0 main_v1))))
  dsimp only [V]
  simp only [hostOps0, hostOps0_1, hostOps0_2, hostOps0_3, List.flatten_cons, List.flatten_nil, List.append_nil, List.cons_append, List.nil_append]
  after_results_simp
  simp only [TRef.ofBuf, TRef.toBuf, cast_eq, id]

/-! ## Two facts about 32-bit words -/

/-- The clamp of a word into 0 … 15, as a number: its signed value, 0 when negative, 15 when above 15. -/
theorem clamp_toNat (w : BitVec 32) : (IntOp.minsi 15#32 (IntOp.maxsi 0#32 w)).toNat = min w.toInt.toNat 15 := by
  have h15 : (15#32 : BitVec 32).toInt = 15 := by decide
  have h0 : (0#32 : BitVec 32).toInt = 0 := by decide
  have hw := w.isLt
  have hti := BitVec.toInt_eq_toNat_cond w
  unfold IntOp.minsi IntOp.maxsi
  by_cases h2 : w.slt 0#32 = true
  · rw [if_pos h2]
    have h3 : ¬ ((15#32 : BitVec 32).slt 0#32 = true) := by decide
    rw [if_neg h3]
    simp only [BitVec.slt, h0, decide_eq_true_eq] at h2
    show 0 = min w.toInt.toNat 15
    omega
  · rw [if_neg h2]
    simp only [BitVec.slt, h0, decide_eq_true_eq] at h2
    by_cases h4 : (15#32 : BitVec 32).slt w = true
    · rw [if_pos h4]
      simp only [BitVec.slt, h15, decide_eq_true_eq] at h4
      show 15 = min w.toInt.toNat 15
      omega
    · rw [if_neg h4]
      simp only [BitVec.slt, h15, decide_eq_true_eq] at h4
      split at hti <;> omega

/-- A position below 64, as a word, is not negative, so "add 64 where negative" leaves it, and it reads back, signed
    and clamped to 63, as itself. -/
theorem wrap_small (w : BitVec 32) (p : Nat) (hp : p < 64) (hw : w = BitVec.ofNat 32 p) :
    min (Scalar.select (IntOp.cmpi .slt w 0#32) (IntOp.addi w 64#32) w).toInt.toNat (64 - 1) = p := by
  subst hw
  have hns : ¬ IntOp.cmpi .slt (BitVec.ofNat 32 p) 0#32 = 1 := by
    show ¬ BitVec.ofBool ((BitVec.ofNat 32 p).slt (BitVec.ofNat 32 0)) = 1#1
    rw [slt_ofNat_iff p 0 (by omega) (by omega)]; omega
  rw [Scalar.select, if_neg hns, toInt_ofNat_small p (by omega), Int.toNat_natCast]
  omega

/-! ## The sorting permutation -/

/-- Sorted position `i` holds sample `perm i`: the stable sort's self-map of the 64 positions, for the comparator on
    the pairs (clamped word, position). -/
def perm : Fin 64 → Fin 64 :=
  sortedFrom (Cert.LibSort2.pairBefore comparator_i32_i32_d0 (clipped m) (iotaInDim S64 32 0))

/-- No two sorted positions hold the same sample, -/
theorem perm_injective : Function.Injective (perm m) := sortedFrom_injective _
/-- and every sample is at some sorted position. -/
theorem perm_surjective : Function.Surjective (perm m) := sortedFrom_surjective _

/-- The first table at position `i` is the sample number `perm i`, as a word. -/
theorem tbl0_apply (i : Fin 64) : tab0 m (Shape.Idx.ofFin i) = BitVec.ofNat 32 (perm m i).val := by
  unfold perm
  rw [tbl0_eq, Cert.LibSort2.sort2_snd_rank1, Shape.Idx.ofFin_zero, iota_apply]

/-- The second table at position `i` is the clamped category word of sample `perm i`. -/
theorem tbl1_apply (i : Fin 64) : tab1 m (Shape.Idx.ofFin i) = clipped m (Shape.Idx.ofFin (perm m i)) := by
  have h0 := tbl0_apply m i
  rw [tbl1_eq]
  generalize tab0 m = T at h0 ⊢
  rw [gather_take gather_S64_S64x1_S64_n_0_n_n_0_1_1 rfl rfl rfl rfl (clipped m) _ i (by decide)]
  refine congrArg (clipped m) (congrArg Shape.Idx.ofFin (Fin.ext ?_))
  show min (broadcastInDim S64x1 ![0] bcast_S64_S64x1_0
      (select (cmpi .slt T (broadcastInDim S64 ![] bcast_S_S64 (constantI S_ 32 0#32)))
        (addi T (broadcastInDim S64 ![] bcast_S_S64 (constantI S_ 32 64#32))) T) (ixP i)).toInt.toNat (64 - 1) = (perm m i).val
  rw [bcast_col1]
  exact wrap_small (T (Shape.Idx.ofFin i)) (perm m i).val (perm m i).isLt h0

attribute [irreducible] perm

/-- A clamped word, as a number: the category word's signed value, 0 when negative, 15 when above 15. -/
theorem clipped_toNat (j : S64.Idx) : (clipped m j).toNat = min (cats m j).toInt.toNat 15 := clamp_toNat _

/-! ## The index maps, at any contents of the tables -/

/-- The one index of the unit rectangle at offset `i 1` of a 64-entry table is position `i 1`. -/
theorem word_idx (i : grid0.Coords) (inb : ∀ a, (![(Scalar.indexCast (BitVec.ofNat 32 (i 1).val)).toNat] : Fin 1 → Nat) a + S1.size a ≤ S64.size a)
    (h1 : 0 < S1.numel) :
    (Rect.unit (s := S64) ![(Scalar.indexCast (BitVec.ofNat 32 (i 1).val)).toNat] S1.size inb).emb (Shape.Idx.first h1)
      = Shape.Idx.ofFin (i 1) := by
  funext a
  have ha : a = 0 := Subsingleton.elim _ _
  subst ha
  apply Fin.ext
  rw [Rect.emb_apply]
  show (BitVec.ofNat 32 (i 1).val).toNat + 1 * (Shape.Idx.first h1 (0 : Fin 1)).val = (i 1).val
  have hf : (Shape.Idx.first h1 (0 : Fin 1)).val = 0 := rfl
  have hi : (i 1).val < 64 := (i 1).isLt
  rw [hf, BitVec.toNat_ofNat]
  omega

variable (pf : pre0.Contents (Elt F))

/-- x's block index at point (h, i): (the first table's word at i, 0, 0). -/
theorem transform_0_eq (i : grid0.Coords) :
    cc0_transform_0 k0_off1_inb numel1_S1 pf i = ![(pf 0 (Shape.Idx.ofFin (i 1))).toNat, 0, 0] :=
  congrArg (fun j => (![(pf 0 j).toNat, 0, 0] : Fin 3 → Nat)) (word_idx i (k0_off1_inb i) (numel1_S1.symm ▸ Nat.one_pos))
/-- W's: (the second table's word at i, 0, h). -/
theorem transform_1_eq (i : grid0.Coords) :
    cc0_transform_1 k0_off1_inb numel1_S1 pf i = ![(pf 1 (Shape.Idx.ofFin (i 1))).toNat, 0, (BitVec.ofNat 32 (i 0).val).toNat] :=
  congrArg (fun j => (![(pf 1 j).toNat, 0, (BitVec.ofNat 32 (i 0).val).toNat] : Fin 3 → Nat)) (word_idx i (k0_off1_inb i) (numel1_S1.symm ▸ Nat.one_pos))
/-- b's: the same. -/
theorem transform_2_eq (i : grid0.Coords) :
    cc0_transform_2 k0_off1_inb numel1_S1 pf i = ![(pf 1 (Shape.Idx.ofFin (i 1))).toNat, 0, (BitVec.ofNat 32 (i 0).val).toNat] :=
  congrArg (fun j => (![(pf 1 j).toNat, 0, (BitVec.ofNat 32 (i 0).val).toNat] : Fin 3 → Nat)) (word_idx i (k0_off1_inb i) (numel1_S1.symm ▸ Nat.one_pos))
/-- The output's: (the first table's word at i, 0, h). -/
theorem transform_3_eq (i : grid0.Coords) :
    cc0_transform_3 k0_off1_inb numel1_S1 pf i = ![(pf 0 (Shape.Idx.ofFin (i 1))).toNat, 0, (BitVec.ofNat 32 (i 0).val).toNat] :=
  congrArg (fun j => (![(pf 0 j).toNat, 0, (BitVec.ofNat 32 (i 0).val).toNat] : Fin 3 → Nat)) (word_idx i (k0_off1_inb i) (numel1_S1.symm ▸ Nat.one_pos))

/-- The grid's first coordinate, as a 32-bit word and back, is itself. -/
theorem coord0_toNat (i : grid0.Coords) : (BitVec.ofNat 32 (i 0).val).toNat = (i 0).val := by
  have hi : (i 0).val < 2 := (i 0).isLt
  rw [BitVec.toNat_ofNat]; omega

/-- Tables whose first holds sample numbers below 64 and whose second holds expert numbers below 16 satisfy the
    pipeline's side condition: every block lies inside its array (and x's two-byte blocks are whole words: 256 rows). -/
theorem ok0_of_bounds (hp : ∀ i : Fin 64, (pf 0 (Shape.Idx.ofFin i)).toNat < 64)
    (hc : ∀ i : Fin 64, (pf 1 (Shape.Idx.ofFin i)).toNat < 16) : ok0 (F := F) pf := by
  refine ⟨fun i => ⟨fun a => ?_, Or.inr (Affine.block_words_dvd (by decide) (by decide))⟩, fun i => ⟨fun a => ?_, Or.inl rfl⟩,
    fun i => ⟨fun a => ?_, Or.inl rfl⟩, fun i => ⟨fun a => ?_, Or.inl rfl⟩⟩
  · rw [transform_0_eq]
    have := hp (i 1)
    fin_cases a <;> simp [S1x256x1024, S64x256x1024] <;> omega
  · rw [transform_1_eq, coord0_toNat]
    have := hc (i 1)
    have h0 : (i 0).val < 2 := (i 0).isLt
    fin_cases a <;> simp [S1x1024x2048, S16x1024x4096] <;> omega
  · rw [transform_2_eq, coord0_toNat]
    have := hc (i 1)
    have h0 : (i 0).val < 2 := (i 0).isLt
    fin_cases a <;> simp [S1x1x2048, S16x1x4096] <;> omega
  · rw [transform_3_eq, coord0_toNat]
    have := hp (i 1)
    have h0 : (i 0).val < 2 := (i 0).isLt
    fin_cases a <;> simp [S1x256x2048, S64x256x4096] <;> omega

/-- THE PIPELINE'S SIDE CONDITION holds of the tables the program computes, whatever the category words are. -/
theorem ok : Ok m := by
  have hp : ∀ i : Fin 64, (tab0 m (Shape.Idx.ofFin i)).toNat < 64 := fun i => by
    rw [tbl0_apply, BitVec.toNat_ofNat]; have := (perm m i).isLt; omega
  have hc : ∀ i : Fin 64, (tab1 m (Shape.Idx.ofFin i)).toNat < 16 := fun i => by
    rw [tbl1_apply, clipped_toNat]; omega
  exact ok0_of_bounds (tbl m) hp hc

end Cert.KernelIdeal.Tables

end
-- ==== Proof.TablesKernel.lean ====
/-
  The two tables the kernel's index maps read, as functions of the category words.

  Before the kernel runs, the program clamps every category word into 0 … 15 (`clipped`), sorts the positions 0 … 63
  stably by clamped word carrying the positions along — the carried table is `perm`: sorted position `i` holds the
  sample `perm i` — and reads the clamped words back in sorted order (`sorted[i] = clipped[perm i]`). At grid
  point (h, i) the kernel works on sample `perm i` with the expert `sorted[i]`.

  All that the certificate needs of the sort is that `perm` is a BIJECTION of the 64 positions (every sample is
  worked on, and consecutive points work on different samples); that the words come out in order plays no part.
  Both tables are in range whatever the category words are — a position is below 64, a clamped word at most 15 — so
  every block the pipeline fetches or writes back lies inside its array.
-/
import proofs.«422944_j9809705304280_2_alg».proof.Proof.Gen.Kernel.Frame
import proofs.«422944_j9809705304280_2_alg».proof.Proof.LibSort2
import Idealize.ShloMosaic.Lib.StableHlo.Run
import Idealize.ShloMosaic.Lib.StableHlo.Predicate
import Idealize.ShloMosaic.Lib.Affine

set_option maxRecDepth 16384

noncomputable section

namespace Cert.Kernel.Tables

open Cert.Kernel Cert.Kernel.Gen
open Idealize.ShloMosaic Idealize.ShloMosaic.TcCoe Idealize.SL.Sem Idealize.ShloMosaic.StableHlo
open Idealize.ShloMosaic.StableHlo.Predicate

variable {F : FTy → Type} [FloatOps F]
variable (m : (ℓ : Loc nD τ sig) → Buf (Elt F) ℓ)

/-! ## What the host operations before the kernel leave -/

/-- The category words as launched (the program runs on one device). -/
abbrev cats : IVec S64 32 := m (0, Proc.devRef .tc main_arg1)

/-- Each category word clamped into 0 … 15: the larger of it and 0, then the smaller of that and 15. -/
def clipped : IVec S64 32 :=
  minsi (broadcastInDim S64 ![] bcast_S_S64 (constantI S_ 32 15#32))
    (maxsi (broadcastInDim S64 ![] bcast_S_S64 (constantI S_ 32 0#32)) (cats m))

/-- The two tables at their literal type: 64 words each. -/
abbrev tab0 : IVec S64 32 := tbl m 0
abbrev tab1 : IVec S64 32 := tbl m 1

/-- The first table: the positions carried through the stable sort of the clamped words. -/
theorem tbl0_eq : tab0 m = (Host.sort2 S64 0 comparator_i32_i32_d0 (clipped m) (iotaInDim S64 32 0)).2 := by
  unfold tab0 tbl clipped cats
  show V m 0 main_v1 = _
  dsimp only [V]
  simp only [hostOps0, hostOps0_1, hostOps0_2, hostOps0_3, List.flatten_cons, List.flatten_nil, List.append_nil, List.cons_append, List.nil_append]
  after_results_simp
  simp only [TRef.ofBuf, TRef.toBuf, cast_eq, id]

set_option maxHeartbeats 1000000 in
/-- The second table: the clamped words gathered at the first table's entries (each entry, were it negative, counted
    from the end; then read signed and clamped into the table — neither changes a position below 64). -/
theorem tbl1_eq : tab1 m = Host.gather gather_S64_S64x1_S64_n_0_n_n_0_1_1 (clipped m)
    (broadcastInDim S64x1 ![0] bcast_S64_S64x1_0
      (select (cmpi .slt (tab0 m) (broadcastInDim S64 ![] bcast_S_S64 (constantI S_ 32 0#32)))
        (addi (tab0 m) (broadcastInDim S64 ![] bcast_S_S64 (constantI S_ 32 64#32))) (tab0 m))) := by
  unfold tab0 tab1 tbl clipped cats
  show V m 0 main_v8 = Host.gather gather_S64_S64x1_S64_n_0_n_n_0_1_1 _
    (broadcastInDim S64x1 ![0] bcast_S64_S64x1_0
      (select (cmpi .slt (@id (IVec S64 32) (V m 0 main_v1)) (broadcastInDim S64 ![] bcast_S_S64 (constantI S_ 32 0#32)))
        (addi (@id (IVec S64 32) (V m 0 main_v1)) (broadcastInDim S64 ![] bcast_S_S64 (constantI S_ 32 64#32))) (@id (IVec S64 32) (V m 0 main_v1))))
  dsimp only [V]
  simp only [hostOps0, hostOps0_1, hostOps0_2, hostOps0_3, List.flatten_cons, List.flatten_nil, List.append_nil, List.cons_append, List.nil_append]
  after_results_simp
  simp only [TRef.ofBuf, TRef.toBuf, cast_eq, id]

/-! ## Two facts about 32-bit words -/

/-- The clamp of a word into 0 … 15, as a number: its signed value, 0 when negative, 15 when above 15. -/
theorem clamp_toNat (w : BitVec 32) : (IntOp.minsi 15#32 (IntOp.maxsi 0#32 w)).toNat = min w.toInt.toNat 15 := by
  have h15 : (15#32 : BitVec 32).toInt = 15 := by decide
  have h0 : (0#32 : BitVec 32).toInt = 0 := by decide
  have hw := w.isLt
  have hti := BitVec.toInt_eq_toNat_cond w
  unfold IntOp.minsi IntOp.maxsi
  by_cases h2 : w.slt 0#32 = true
  · rw [if_pos h2]
    have h3 : ¬ ((15#32 : BitVec 32).slt 0#32 = true) := by decide
    rw [if_neg h3]
    simp only [BitVec.slt, h0, decide_eq_true_eq] at h2
    show 0 = min w.toInt.toNat 15
    omega
  · rw [if_neg h2]
    simp only [BitVec.slt, h0, decide_eq_true_eq] at h2
    by_cases h4 : (15#32 : BitVec 32).slt w = true
    · rw [if_pos h4]
      simp only [BitVec.slt, h15, decide_eq_true_eq] at h4
      show 15 = min w.toInt.toNat 15
      omega
    · rw [if_neg h4]
      simp only [BitVec.slt, h15, decide_eq_true_eq] at h4
      split at hti <;> omega

/-- A position below 64, as a word, is not negative, so "add 64 where negative" leaves it, and it reads back, signed
    and clamped to 63, as itself. -/
theorem wrap_small (w : BitVec 32) (p : Nat) (hp : p < 64) (hw : w = BitVec.ofNat 32 p) :
    min (Scalar.select (IntOp.cmpi .slt w 0#32) (IntOp.addi w 64#32) w).toInt.toNat (64 - 1) = p := by
  subst hw
  have hns : ¬ IntOp.cmpi .slt (BitVec.ofNat 32 p) 0#32 = 1 := by
    show ¬ BitVec.ofBool ((BitVec.ofNat 32 p).slt (BitVec.ofNat 32 0)) = 1#1
    rw [slt_ofNat_iff p 0 (by omega) (by omega)]; omega
  rw [Scalar.select, if_neg hns, toInt_ofNat_small p (by omega), Int.toNat_natCast]
  omega

/-! ## The sorting permutation -/

/-- Sorted position `i` holds sample `perm i`: the stable sort's self-map of the 64 positions, for the comparator on
    the pairs (clamped word, position). -/
def perm : Fin 64 → Fin 64 :=
  sortedFrom (Cert.LibSort2.pairBefore comparator_i32_i32_d0 (clipped m) (iotaInDim S64 32 0))

/-- No two sorted positions hold the same sample, -/
theorem perm_injective : Function.Injective (perm m) := sortedFrom_injective _
/-- and every sample is at some sorted position. -/
theorem perm_surjective : Function.Surjective (perm m) := sortedFrom_surjective _

/-- The first table at position `i` is the sample number `perm i`, as a word. -/
theorem tbl0_apply (i : Fin 64) : tab0 m (Shape.Idx.ofFin i) = BitVec.ofNat 32 (perm m i).val := by
  unfold perm
  rw [tbl0_eq, Cert.LibSort2.sort2_snd_rank1, Shape.Idx.ofFin_zero, iota_apply]

/-- The second table at position `i` is the clamped category word of sample `perm i`. -/
theorem tbl1_apply (i : Fin 64) : tab1 m (Shape.Idx.ofFin i) = clipped m (Shape.Idx.ofFin (perm m i)) := by
  have h0 := tbl0_apply m i
  rw [tbl1_eq]
  generalize tab0 m = T at h0 ⊢
  rw [gather_take gather_S64_S64x1_S64_n_0_n_n_0_1_1 rfl rfl rfl rfl (clipped m) _ i (by decide)]
  refine congrArg (clipped m) (congrArg Shape.Idx.ofFin (Fin.ext ?_))
  show min (broadcastInDim S64x1 ![0] bcast_S64_S64x1_0
      (select (cmpi .slt T (broadcastInDim S64 ![] bcast_S_S64 (constantI S_ 32 0#32)))
        (addi T (broadcastInDim S64 ![] bcast_S_S64 (constantI S_ 32 64#32))) T) (ixP i)).toInt.toNat (64 - 1) = (perm m i).val
  rw [bcast_col1]
  exact wrap_small (T (Shape.Idx.ofFin i)) (perm m i).val (perm m i).isLt h0

attribute [irreducible] perm

/-- A clamped word, as a number: the category word's signed value, 0 when negative, 15 when above 15. -/
theorem clipped_toNat (j : S64.Idx) : (clipped m j).toNat = min (cats m j).toInt.toNat 15 := clamp_toNat _

/-! ## The index maps, at any contents of the tables -/

/-- The one index of the unit rectangle at offset `i 1` of a 64-entry table is position `i 1`. -/
theorem word_idx (i : grid0.Coords) (inb : ∀ a, (![(Scalar.indexCast (BitVec.ofNat 32 (i 1).val)).toNat] : Fin 1 → Nat) a + S1.size a ≤ S64.size a)
    (h1 : 0 < S1.numel) :
    (Rect.unit (s := S64) ![(Scalar.indexCast (BitVec.ofNat 32 (i 1).val)).toNat] S1.size inb).emb (Shape.Idx.first h1)
      = Shape.Idx.ofFin (i 1) := by
  funext a
  have ha : a = 0 := Subsingleton.elim _ _
  subst ha
  apply Fin.ext
  rw [Rect.emb_apply]
  show (BitVec.ofNat 32 (i 1).val).toNat + 1 * (Shape.Idx.first h1 (0 : Fin 1)).val = (i 1).val
  have hf : (Shape.Idx.first h1 (0 : Fin 1)).val = 0 := rfl
  have hi : (i 1).val < 64 := (i 1).isLt
  rw [hf, BitVec.toNat_ofNat]
  omega

variable (pf : pre0.Contents (Elt F))

/-- x's block index at point (h, i): (the first table's word at i, 0, 0). -/
theorem transform_0_eq (i : grid0.Coords) :
    cc0_transform_0 k0_off1_inb numel1_S1 pf i = ![(pf 0 (Shape.Idx.ofFin (i 1))).toNat, 0, 0] :=
  congrArg (fun j => (![(pf 0 j).toNat, 0, 0] : Fin 3 → Nat)) (word_idx i (k0_off1_inb i) (numel1_S1.symm ▸ Nat.one_pos))
/-- W's: (the second table's word at i, 0, h). -/
theorem transform_1_eq (i : grid0.Coords) :
    cc0_transform_1 k0_off1_inb numel1_S1 pf i = ![(pf 1 (Shape.Idx.ofFin (i 1))).toNat, 0, (BitVec.ofNat 32 (i 0).val).toNat] :=
  congrArg (fun j => (![(pf 1 j).toNat, 0, (BitVec.ofNat 32 (i 0).val).toNat] : Fin 3 → Nat)) (word_idx i (k0_off1_inb i) (numel1_S1.symm ▸ Nat.one_pos))
/-- b's: the same. -/
theorem transform_2_eq (i : grid0.Coords) :
    cc0_transform_2 k0_off1_inb numel1_S1 pf i = ![(pf 1 (Shape.Idx.ofFin (i 1))).toNat, 0, (BitVec.ofNat 32 (i 0).val).toNat] :=
  congrArg (fun j => (![(pf 1 j).toNat, 0, (BitVec.ofNat 32 (i 0).val).toNat] : Fin 3 → Nat)) (word_idx i (k0_off1_inb i) (numel1_S1.symm ▸ Nat.one_pos))
/-- The output's: (the first table's word at i, 0, h). -/
theorem transform_3_eq (i : grid0.Coords) :
    cc0_transform_3 k0_off1_inb numel1_S1 pf i = ![(pf 0 (Shape.Idx.ofFin (i 1))).toNat, 0, (BitVec.ofNat 32 (i 0).val).toNat] :=
  congrArg (fun j => (![(pf 0 j).toNat, 0, (BitVec.ofNat 32 (i 0).val).toNat] : Fin 3 → Nat)) (word_idx i (k0_off1_inb i) (numel1_S1.symm ▸ Nat.one_pos))

/-- The grid's first coordinate, as a 32-bit word and back, is itself. -/
theorem coord0_toNat (i : grid0.Coords) : (BitVec.ofNat 32 (i 0).val).toNat = (i 0).val := by
  have hi : (i 0).val < 2 := (i 0).isLt
  rw [BitVec.toNat_ofNat]; omega

/-- Tables whose first holds sample numbers below 64 and whose second holds expert numbers below 16 satisfy the
    pipeline's side condition: every block lies inside its array (and x's two-byte blocks are whole words: 256 rows). -/
theorem ok0_of_bounds (hp : ∀ i : Fin 64, (pf 0 (Shape.Idx.ofFin i)).toNat < 64)
    (hc : ∀ i : Fin 64, (pf 1 (Shape.Idx.ofFin i)).toNat < 16) : ok0 (F := F) pf := by
  refine ⟨fun i => ⟨fun a => ?_, Or.inr (Affine.block_words_dvd (by decide) (by decide))⟩, fun i => ⟨fun a => ?_, Or.inl rfl⟩,
    fun i => ⟨fun a => ?_, Or.inl rfl⟩, fun i => ⟨fun a => ?_, Or.inl rfl⟩⟩
  · rw [transform_0_eq]
    have := hp (i 1)
    fin_cases a <;> simp [S1x256x1024, S64x256x1024] <;> omega
  · rw [transform_1_eq, coord0_toNat]
    have := hc (i 1)
    have h0 : (i 0).val < 2 := (i 0).isLt
    fin_cases a <;> simp [S1x1024x2048, S16x1024x4096] <;> omega
  · rw [transform_2_eq, coord0_toNat]
    have := hc (i 1)
    have h0 : (i 0).val < 2 := (i 0).isLt
    fin_cases a <;> simp [S1x1x2048, S16x1x4096] <;> omega
  · rw [transform_3_eq, coord0_toNat]
    have := hp (i 1)
    have h0 : (i 0).val < 2 := (i 0).isLt
    fin_cases a <;> simp [S1x256x2048, S64x256x4096] <;> omega

/-- THE PIPELINE'S SIDE CONDITION holds of the tables the program computes, whatever the category words are. -/
theorem ok : Ok m := by
  have hp : ∀ i : Fin 64, (tab0 m (Shape.Idx.ofFin i)).toNat < 64 := fun i => by
    rw [tbl0_apply, BitVec.toNat_ofNat]; have := (perm m i).isLt; omega
  have hc : ∀ i : Fin 64, (tab1 m (Shape.Idx.ofFin i)).toNat < 16 := fun i => by
    rw [tbl1_apply, clipped_toNat]; omega
  exact ok0_of_bounds (tbl m) hp hc

end Cert.Kernel.Tables

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Body.lean ====
/-
  What one run of the kernel body leaves in the output's staging buffer.

  The body loads the three staged blocks whole — x's [1, 256, 1024], W's [1, 1024, 2048], b's [1, 1, 2048] —, and
  stores ONE value over the whole [1, 256, 2048] output block: the 256 × 1024 by 1024 × 2048 product of the first two
  (into a zero accumulator) plus the bias row laid along the 256 rows. So the block the run leaves is that value of
  the three loaded blocks, and at entry (0, s, n) it is (∑ k, x[0, s, k] · W[0, k, n]) + b[0, 0, n].
-/
import proofs.«422944_j9809705304280_2_alg».proof.Proof.Gen.KernelIdeal.Frame
import proofs.«422944_j9809705304280_2_alg».proof.Proof.LibMatProd
import Idealize.ShloMosaic.Lib.Pipeline.Value
import Idealize.ShloMosaic.Lib.ValueIdx
import Idealize.ShloMosaic.Lib.ValueLayout

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The offset of a load or store of a whole rank-3 block. -/
theorem off3_zero : (![0, 0, 0] : Fin 3 → Nat) = fun _ => 0 := by funext a; fin_cases a <;> rfl

/-- The output block the run leaves is the stored value of the three loaded blocks. -/
theorem out_eq (c : Dev nD) (i : grid0.Coords) (arg4 : Memref sig .tc .vmem S1x256x1024 .bf16) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x256x2048 .f32) (harg7 : arg7.IsWhole)
    (x0 : Vec F S1x256x1024 .bf16) (x1 : Vec F S1x1024x2048 .f32) (x2 : Vec F S1x1x2048 .f32) (xt0 : TbBuf0 (F := F) c tbM0_0) (xt1 : TbBuf0 (F := F) c tbM0_1) :
    out0_A_3 c i arg4 harg4 arg5 harg5 arg6 harg6 arg7 harg7 x0 x1 x2 xt0 xt1 = k0_pay1 x0 x1 x2 := by
  unfold out0_A_3
  rw [View.read_writes_eq_canon _ _ _ (cover0_A_3 c i arg4 harg4 arg5 harg5 arg6 harg6 arg7 harg7 x0 x1 x2 xt0 xt1)]
  unfold kernelRun0_A
  dsimp only
  sl_unfold_words
  rw [View.canon_unit_zero off3_zero]
  simp only [View.readAt_eq_ld, Memref.IsWhole.read_unread, View.ld_unit_zero (S := S1x256x1024) off3_zero,
    View.ld_unit_zero (S := S1x1024x2048) off3_zero, View.ld_unit_zero (S := S1x1x2048) off3_zero]

/-! ## The stored value at an entry, on the extended reals -/

/-- The stored value at entry (0, s, n): row `s` of the x block against column `n` of the W block, summed over the
    1024 shared entries, plus entry `n` of the bias row. (A change of float format is the identity on the extended
    reals; the accumulator starts at zero.) -/
theorem pay_apply (x0 : Vec Ideal S1x256x1024 .bf16) (x1 : Vec Ideal S1x1024x2048 .f32) (x2 : Vec Ideal S1x1x2048 .f32)
    (s : Fin 256) (n : Fin 2048) :
    k0_pay1 (F := Ideal) x0 x1 x2 (ix3 (0 : Fin 1) s n)
      = (∑ k : Fin 1024, x0 (ix3 (0 : Fin 1) s k) * x1 (ix3 (0 : Fin 1) k n)) + x2 (ix3 (0 : Fin 1) (0 : Fin 1) n) := by
  unfold k0_pay1
  refine (shapeCast_apply _ _ (ix3 (0 : Fin 1) s n) (ix2 s n) (by
    rw [Shape.rowMajor_val_two, Shape.rowMajor_val_three]; show s.val * 2048 + n.val = (0 * 256 + s.val) * 2048 + n.val; omega)).trans ?_
  refine congrArg₂ (· + ·) ?_ ?_
  · refine (Cert.LibMatProd.matmul_zero_apply dot_S256x1024_S1024x2048_S256x2048_1_0_0_1_n_n rfl none _ _ s n).trans ?_
    refine Finset.sum_congr rfl fun k _ => ?_
    refine congrArg₂ (· * ·) ?_ ?_
    · exact shapeCast_apply x0 _ (ix2 s k) (ix3 (0 : Fin 1) s k) (by
        rw [Shape.rowMajor_val_two, Shape.rowMajor_val_three]; show (0 * 256 + s.val) * 1024 + k.val = s.val * 1024 + k.val; omega)
    · exact shapeCast_apply x1 _ (ix2 k n) (ix3 (0 : Fin 1) k n) (by
        rw [Shape.rowMajor_val_two, Shape.rowMajor_val_three]; show (0 * 1024 + k.val) * 2048 + n.val = k.val * 2048 + n.val; omega)
  · refine (broadcastTo_apply _ _ (ix2 s n) (ix2 (0 : Fin 1) n) (fun a => ?_)).trans ?_
    · match a with
      | ⟨0, _⟩ => rfl
      | ⟨1, _⟩ => rfl
    · exact shapeCast_apply x2 _ (ix2 (0 : Fin 1) n) (ix3 (0 : Fin 1) (0 : Fin 1) n) (by
        rw [Shape.rowMajor_val_two, Shape.rowMajor_val_three]; show (0 * 1 + 0) * 2048 + n.val = 0 * 2048 + n.val; omega)

end Cert.KernelIdeal.Body

end
-- ==== Proof.Spec.lean ====
/-
  The mathematics both programs compute, over the extended reals.

  A batch of 64 samples, each a 256 × 1024 matrix `x[j]`, and 16 experts, each a 1024 × 4096 weight matrix `W[e]`
  with a bias row `b[e]` of 4096 entries. Sample `j` carries a category word `cat[j]`; it selects the expert
  `expert cat[j]`: the word read as a signed integer, sent to 0 when negative and to 15 when above 15. The result is

      out[j, s, n] = (∑ k < 1024, x[j, s, k] · W[expert cat[j], k, n]) + b[expert cat[j], n].

  No law of the extended reals beyond this shape is needed: both programs compute this very sum, term for term, so
  finiteness of the inputs plays no part; only the category words being non-negative does (a negative word is counted
  from the end by the reference and sent to 0 by the kernel).
-/
import Idealize.ShloMosaic.PureOps.Ideal
import Idealize.ShloMosaic.Lib.ValueIdx

noncomputable section

namespace Cert.Spec

open Idealize.ShloMosaic Idealize.ShloMosaic.ValueIdx

/-- The expert a category word selects: its signed value, negative values sent to 0, values above 15 to 15. -/
def expert (w : BitVec 32) : Fin 16 := ⟨min w.toInt.toNat 15, by omega⟩

/-- The result array as one function of the four argument arrays. -/
def moe (x : (⟨3, ![64, 256, 1024]⟩ : Shape).Idx → EReal) (cat : (⟨1, ![64]⟩ : Shape).Idx → BitVec 32)
    (W : (⟨3, ![16, 1024, 4096]⟩ : Shape).Idx → EReal) (b : (⟨2, ![16, 4096]⟩ : Shape).Idx → EReal) :
    (⟨3, ![64, 256, 4096]⟩ : Shape).Idx → EReal :=
  fun i => (∑ k : Fin 1024, x (ix3 (i 0) (i 1) k) * W (ix3 (expert (cat (ix1 (i 0)))) k (i 2)))
    + b (ix2 (expert (cat (ix1 (i 0)))) (i 2))

/-- A word that is non-negative as a signed integer is not below zero, -/
theorem not_slt_zero (w : BitVec 32) (h : IntOp.cmpi .sge w 0#32 = 1#1) : ¬ IntOp.cmpi .slt w 0#32 = 1#1 := by
  unfold IntOp.cmpi at h ⊢
  have e1 : ∀ b : Bool, BitVec.ofBool b = 1#1 ↔ b = true := fun b => by cases b <;> decide
  rw [e1] at h ⊢
  simp only [BitVec.slt, BitVec.sle, decide_eq_true_eq] at h ⊢
  omega

end Cert.Spec

end
-- ==== Proof.KernelValue.lean ====
/-
  What the kernel's result array holds after the run.

  The grid has 2 × 64 points: point (h, i) works on sample `σ i` (the first table's entry at i) with the expert the
  second table names at i, on the h-th half of the 4096 output columns. It fetches x[σ i] whole, the 1024 × 2048 half
  h of that expert's weights and the matching half of its bias row, and writes back the 256 × 2048 half h of
  out[σ i]: at (σ i, s, 2048 h + n) the value (∑ k, x[σ i, s, k] · W[e, k, 2048 h + n]) + b[e, 2048 h + n].

  The first part of this file proves that for ANY admissible contents of the two tables, against an abstract
  bijection σ of the samples and expert assignment ε that the tables are assumed to spell; nothing there looks at
  how the tables were computed. Since σ is a bijection, consecutive points write different blocks (so every point's
  block is written back) and the blocks of the 128 points tile the array: it ends holding that value everywhere.
  The second part puts in the tables the program computes (the sort's permutation and the clamped category words).
-/
import proofs.«422944_j9809705304280_2_alg».proof.Proof.Tables
import proofs.«422944_j9809705304280_2_alg».proof.Proof.Body
import proofs.«422944_j9809705304280_2_alg».proof.Proof.Spec
import Idealize.ShloMosaic.Lib.Pipeline.Value
import Idealize.ShloMosaic.Lib.StableHlo.Run
import Idealize.ShloMosaic.PureOps.Ideal
import Idealize.ShloMosaic.Lib.ValueIdx

set_option maxRecDepth 16384

noncomputable section

namespace Cert.KernelIdeal.KernelValue

open Cert.KernelIdeal Cert.KernelIdeal.Gen Cert.KernelIdeal.Tables Cert.KernelIdeal.Body
open Idealize.ShloMosaic Idealize.ShloMosaic.TcCoe Idealize.ShloMosaic.ValueIdx
open Idealize.SL Idealize.SL.Sem
open Idealize.ShloMosaic.Pipeline (Dat)

/-- The stored value at any entry j = (0, s, n) of the output block. -/
theorem pay_at (x0 : Vec Ideal S1x256x1024 .bf16) (x1 : Vec Ideal S1x1024x2048 .f32) (x2 : Vec Ideal S1x1x2048 .f32)
    (j : S1x256x2048.Idx) :
    k0_pay1 (F := Ideal) x0 x1 x2 j
      = (∑ k : Fin 1024, x0 (ix3 (0 : Fin 1) (j 1) k) * x1 (ix3 (0 : Fin 1) k (j 2))) + x2 (ix3 (0 : Fin 1) (0 : Fin 1) (j 2)) := by
  have hj : j = ix3 (0 : Fin 1) (j 1) (j 2) := by
    funext ax
    match ax with
    | ⟨0, _⟩ => exact Fin.ext (by show (j 0).val = 0; have h : (j 0).val < 1 := (j 0).isLt; omega)
    | ⟨1, _⟩ => rfl
    | ⟨2, _⟩ => rfl
  exact (congrArg (k0_pay1 (F := Ideal) x0 x1 x2) hj).trans (pay_apply x0 x1 x2 (j 1) (j 2))

/-- The result array, for an assignment ε of experts to samples, as a function of the three arrays the kernel is
    handed: x [64, 256, 1024], W [16, 1024, 4096] and the bias as [16, 1, 4096]. -/
def result (ε : Fin 64 → Fin 16) (X : S64x256x1024.Idx → EReal) (W : S16x1024x4096.Idx → EReal)
    (B : S16x1x4096.Idx → EReal) : S64x256x4096.Idx → EReal :=
  fun i => (∑ k : Fin 1024, X (ix3 (i 0) (i 1) k) * W (ix3 (ε (i 0)) k (i 2))) + B (ix3 (ε (i 0)) (0 : Fin 1) (i 2))

/-! ## At any admissible contents of the tables -/

section AnyTables

variable (a : (pcfg0 (F := Ideal)).Adm)

/-- There are 128 points. -/
theorem lt_128 (t : Fin (cfg0 a).N) : t.val < 128 := by
  exact Nat.lt_of_lt_of_eq t.isLt (show (cfg0 a).N = 128 from N_0)

/-- Point t's two coordinates: the half h of the output columns it works on, and its sorted position i. -/
def half (t : Fin (cfg0 a).N) : Fin 2 := (cfg0 a).grid.coords t 0
def pos (t : Fin (cfg0 a).N) : Fin 64 := (cfg0 a).grid.coords t 1

/-- They are t / 64 and t % 64: the sorted position moves fastest. -/
theorem half_val (t : Fin (cfg0 a).N) : (half a t).val = t.val / 64 := by
  have h := lt_128 a t
  show t.val / grid0.stride 0 % 2 = t.val / 64
  rw [show grid0.stride 0 = 64 from by decide]; omega
theorem pos_val (t : Fin (cfg0 a).N) : (pos a t).val = t.val % 64 := by
  show t.val / grid0.stride 1 % 64 = t.val % 64
  rw [show grid0.stride 1 = 1 from by decide, Nat.div_one]

/-- The four windows' block indices at point t. -/
theorem idx0 (t : Fin (cfg0 a).N) : ((cfg0 a).win 0).index t
    = ![(a.1 0 (Shape.Idx.ofFin (pos a t))).toNat, 0, 0] := transform_0_eq a.1 ((cfg0 a).grid.coords t)
theorem idx1 (t : Fin (cfg0 a).N) : ((cfg0 a).win 1).index t
    = ![(a.1 1 (Shape.Idx.ofFin (pos a t))).toNat, 0, (half a t).val] :=
  (transform_1_eq a.1 ((cfg0 a).grid.coords t)).trans
    (congrArg (fun z => (![(a.1 1 (Shape.Idx.ofFin (pos a t))).toNat, 0, z] : Fin 3 → Nat)) (coord0_toNat ((cfg0 a).grid.coords t)))
theorem idx2 (t : Fin (cfg0 a).N) : ((cfg0 a).win 2).index t
    = ![(a.1 1 (Shape.Idx.ofFin (pos a t))).toNat, 0, (half a t).val] :=
  (transform_2_eq a.1 ((cfg0 a).grid.coords t)).trans
    (congrArg (fun z => (![(a.1 1 (Shape.Idx.ofFin (pos a t))).toNat, 0, z] : Fin 3 → Nat)) (coord0_toNat ((cfg0 a).grid.coords t)))
theorem idx3 (t : Fin (cfg0 a).N) : ((cfg0 a).win 3).index t
    = ![(a.1 0 (Shape.Idx.ofFin (pos a t))).toNat, 0, (half a t).val] :=
  (transform_3_eq a.1 ((cfg0 a).grid.coords t)).trans
    (congrArg (fun z => (![(a.1 0 (Shape.Idx.ofFin (pos a t))).toNat, 0, z] : Fin 3 → Nat)) (coord0_toNat ((cfg0 a).grid.coords t)))

/-- x's block at point t, at (0, s, k): the array at (the first table's word, s, k). -/
theorem read_x (X : S64x256x1024.Idx → EReal) (t : Fin (cfg0 a).N) (s : Fin 256) (k : Fin 1024) (j : S64x256x1024.Idx)
    (hj0 : (j 0).val = (a.1 0 (Shape.Idx.ofFin (pos a t))).toNat) (hj1 : (j 1).val = s.val) (hj2 : (j 2).val = k.val) :
    (((cfg0 a).win 0).blk t).view.read (Elt Ideal) X (ix3 (0 : Fin 1) s k) = X j := by
  show X ((((cfg0 a).win 0).blk t).view.emb (ix3 (0 : Fin 1) s k)) = X j
  have hidx := idx0 a t
  refine congrArg X (funext fun ax => Fin.ext ?_)
  match ax with
  | ⟨0, _⟩ =>
    show ((cfg0 a).win 0).index t (0 : Fin 3) * 1 + 1 * 0 = (j 0).val
    rw [hidx, hj0]; simp
  | ⟨1, _⟩ =>
    show ((cfg0 a).win 0).index t (1 : Fin 3) * 256 + 1 * s.val = (j 1).val
    rw [hidx, hj1]; simp
  | ⟨2, _⟩ =>
    show ((cfg0 a).win 0).index t (2 : Fin 3) * 1024 + 1 * k.val = (j 2).val
    rw [hidx, hj2]; simp

/-- W's block at point t, at (0, k, n): the array at (the second table's word, k, 2048 h + n). -/
theorem read_W (W : S16x1024x4096.Idx → EReal) (t : Fin (cfg0 a).N) (k : Fin 1024) (n : Fin 2048) (j : S16x1024x4096.Idx)
    (hj0 : (j 0).val = (a.1 1 (Shape.Idx.ofFin (pos a t))).toNat) (hj1 : (j 1).val = k.val)
    (hj2 : (j 2).val = (half a t).val * 2048 + n.val) :
    (((cfg0 a).win 1).blk t).view.read (Elt Ideal) W (ix3 (0 : Fin 1) k n) = W j := by
  show W ((((cfg0 a).win 1).blk t).view.emb (ix3 (0 : Fin 1) k n)) = W j
  have hidx := idx1 a t
  refine congrArg W (funext fun ax => Fin.ext ?_)
  match ax with
  | ⟨0, _⟩ =>
    show ((cfg0 a).win 1).index t (0 : Fin 3) * 1 + 1 * 0 = (j 0).val
    rw [hidx, hj0]; simp
  | ⟨1, _⟩ =>
    show ((cfg0 a).win 1).index t (1 : Fin 3) * 1024 + 1 * k.val = (j 1).val
    rw [hidx, hj1]; simp
  | ⟨2, _⟩ =>
    show ((cfg0 a).win 1).index t (2 : Fin 3) * 2048 + 1 * n.val = (j 2).val
    rw [hidx, hj2]; simp

/-- b's block at point t, at (0, 0, n): the array at (the second table's word, 0, 2048 h + n). -/
theorem read_b (B : S16x1x4096.Idx → EReal) (t : Fin (cfg0 a).N) (n : Fin 2048) (j : S16x1x4096.Idx)
    (hj0 : (j 0).val = (a.1 1 (Shape.Idx.ofFin (pos a t))).toNat)
    (hj2 : (j 2).val = (half a t).val * 2048 + n.val) :
    (((cfg0 a).win 2).blk t).view.read (Elt Ideal) B (ix3 (0 : Fin 1) (0 : Fin 1) n) = B j := by
  show B ((((cfg0 a).win 2).blk t).view.emb (ix3 (0 : Fin 1) (0 : Fin 1) n)) = B j
  have hidx := idx2 a t
  have hj1 : (j 1).val = 0 := by have h : (j 1).val < 1 := (j 1).isLt; omega
  refine congrArg B (funext fun ax => Fin.ext ?_)
  match ax with
  | ⟨0, _⟩ =>
    show ((cfg0 a).win 2).index t (0 : Fin 3) * 1 + 1 * 0 = (j 0).val
    rw [hidx, hj0]; simp
  | ⟨1, _⟩ =>
    show ((cfg0 a).win 2).index t (1 : Fin 3) * 1 + 1 * 0 = (j 1).val
    rw [hidx, hj1]; simp
  | ⟨2, _⟩ =>
    show ((cfg0 a).win 2).index t (2 : Fin 3) * 2048 + 1 * n.val = (j 2).val
    rw [hidx, hj2]; simp

/-- THE PER-POINT EQUATION. If the first table spells σ and the second the experts ε of the samples in sorted order,
    the value the body stores at point t, at entry y of its block, is the result at the place of the array that entry is
    written back to. -/
theorem point_eq (pf : pre0.Contents (Elt Ideal)) (hpf : a.1 = pf) (σ : Fin 64 → Fin 64) (ε : Fin 64 → Fin 16)
    (h0 : ∀ i : Fin 64, (pf 0 (Shape.Idx.ofFin i)).toNat = (σ i).val)
    (h1 : ∀ i : Fin 64, (pf 1 (Shape.Idx.ofFin i)).toNat = (ε (σ i)).val)
    (X : S64x256x1024.Idx → EReal) (W : S16x1024x4096.Idx → EReal) (B : S16x1x4096.Idx → EReal)
    (t : Fin (cfg0 a).N) (y : S1x256x2048.Idx) :
    k0_pay1 (F := Ideal) ((((cfg0 a).win 0).blk t).view.read (Elt Ideal) X) ((((cfg0 a).win 1).blk t).view.read (Elt Ideal) W)
        ((((cfg0 a).win 2).blk t).view.read (Elt Ideal) B) y
      = result ε X W B ((((cfg0 a).win 3).blk t).view.emb y) := by
  subst hpf
  have hy0 : (y 0).val = 0 := by have h : (y 0).val < 1 := (y 0).isLt; omega
  have hy1 : (y 1).val < 256 := (y 1).isLt
  have hy2 : (y 2).val < 2048 := (y 2).isLt
  have hc0 : (half a t).val < 2 := (half a t).isLt
  have hidx := idx3 a t
  -- where the entry sits in the array: sample σ i, row y 1, column 2048 h + y 2
  have hE : (((cfg0 a).win 3).blk t).view.emb y
      = (ix3 (σ (pos a t)) (⟨(y 1).val, hy1⟩ : Fin 256)
          (⟨(half a t).val * 2048 + (y 2).val, by omega⟩ : Fin 4096) : S64x256x4096.Idx) := by
    funext ax; apply Fin.ext
    match ax with
    | ⟨0, _⟩ =>
      show ((cfg0 a).win 3).index t (0 : Fin 3) * 1 + 1 * (y 0).val = (σ (pos a t)).val
      rw [hidx, hy0, ← h0]; simp
    | ⟨1, _⟩ =>
      show ((cfg0 a).win 3).index t (1 : Fin 3) * 256 + 1 * (y 1).val = (y 1).val
      rw [hidx]; simp
    | ⟨2, _⟩ =>
      show ((cfg0 a).win 3).index t (2 : Fin 3) * 2048 + 1 * (y 2).val = (half a t).val * 2048 + (y 2).val
      rw [hidx]; simp
  rw [hE]
  refine (pay_at _ _ _ y).trans ?_
  unfold result
  refine congrArg₂ (· + ·) (Finset.sum_congr rfl fun k _ => congrArg₂ (· * ·) ?_ ?_) ?_
  · exact read_x a X t (y 1) k _ (h0 _).symm rfl rfl
  · exact read_W a W t k (y 2) _ (h1 _).symm rfl rfl
  · exact read_b a B t (y 2) _ (h1 _).symm rfl

/-- An index of the result array is in point t's block iff each coordinate is in the block's range on its axis. -/
theorem mem_blk3 (t : Fin (cfg0 a).N) (i : S64x256x4096.Idx) :
    i ∈ (((cfg0 a).win 3).blk t).view.set ↔ ∀ ax : Fin 3, ((cfg0 a).win 3).index t ax * S1x256x2048.size ax ≤ (i ax).val
      ∧ (i ax).val < ((cfg0 a).win 3).index t ax * S1x256x2048.size ax + S1x256x2048.size ax := by
  have hset : (((cfg0 a).win 3).blk t).view.set = (((cfg0 a).win 3).rect t).set :=
    View.set_slice_whole main_v11 (((cfg0 a).win 3).rect t)
  exact (Finset.ext_iff.mp hset i).trans Rect.mem_set_unit

/-- EVERY POINT WRITES ITS BLOCK BACK: the next point's block is another one — in the same half another sample's
    (σ is injective), at the turn of the halves the other half's. -/
theorem flush3 (pf : pre0.Contents (Elt Ideal)) (hpf : a.1 = pf) (σ : Fin 64 → Fin 64) (hσ : Function.Injective σ)
    (h0 : ∀ i : Fin 64, (pf 0 (Shape.Idx.ofFin i)).toNat = (σ i).val) (t : Fin (cfg0 a).N) :
    ((cfg0 a).win 3).flush t = true := by
  subst hpf
  have ht := lt_128 a t
  unfold Pipeline.Window.flush
  rw [Bool.and_eq_true]
  refine ⟨rfl, ?_⟩
  rw [Bool.or_eq_true, decide_eq_true_eq, decide_eq_true_eq]
  by_cases hl : t.val + 1 = (cfg0 a).grid.N
  · exact Or.inl hl
  · right
    have hN : (cfg0 a).grid.N = 128 := N_0
    have hlt : t.val + 1 < (cfg0 a).grid.N := by omega
    refine ⟨hlt, fun he => ?_⟩
    have e0 := congrFun he (0 : Fin 3)
    have e2 := congrFun he (2 : Fin 3)
    rw [idx3, idx3] at e0 e2
    simp only [Matrix.cons_val_zero, Matrix.cons_val_two, Matrix.tail_cons, Matrix.head_cons] at e0 e2
    rw [h0, h0] at e0
    have e1 : pos a ⟨t.val + 1, hlt⟩ = pos a t := hσ (Fin.ext e0)
    have e1' := congrArg Fin.val e1
    rw [pos_val, pos_val] at e1'
    rw [half_val, half_val] at e2
    simp only at e1' e2
    omega

/-- THE BLOCKS TILE THE ARRAY: entry (j, s, n) is in the block of the point (n / 2048, i) with σ i = j. -/
theorem cover3 (pf : pre0.Contents (Elt Ideal)) (hpf : a.1 = pf) (σ : Fin 64 → Fin 64) (hσ : Function.Injective σ)
    (hσs : Function.Surjective σ) (h0 : ∀ i : Fin 64, (pf 0 (Shape.Idx.ofFin i)).toNat = (σ i).val) (i : S64x256x4096.Idx) :
    ∃ t : Fin (cfg0 a).N, ((cfg0 a).win 3).flush t = true ∧ i ∈ (((cfg0 a).win 3).blk t).view.set := by
  subst hpf
  obtain ⟨p, hp⟩ := hσs (i 0)
  have hi1 : (i 1).val < 256 := (i 1).isLt
  have hi2 : (i 2).val < 4096 := (i 2).isLt
  have hpl : p.val < 64 := p.isLt
  have hN : (cfg0 a).N = 128 := N_0
  let t : Fin (cfg0 a).N := ⟨(i 2).val / 2048 * 64 + p.val, by omega⟩
  have hc1 : pos a t = p := Fin.ext (by rw [pos_val]; show ((i 2).val / 2048 * 64 + p.val) % 64 = p.val; omega)
  have hc0 : (half a t).val = (i 2).val / 2048 := by
    rw [half_val]; show ((i 2).val / 2048 * 64 + p.val) / 64 = (i 2).val / 2048; omega
  have hidx := idx3 a t
  rw [hc1, h0, hp, hc0] at hidx
  refine ⟨t, flush3 a a.1 rfl σ hσ h0 t, ?_⟩
  rw [mem_blk3]
  intro ax
  match ax with
  | ⟨0, _⟩ =>
    show ((cfg0 a).win 3).index t (0 : Fin 3) * 1 ≤ (i 0).val ∧ (i 0).val < ((cfg0 a).win 3).index t (0 : Fin 3) * 1 + 1
    rw [hidx]; simp
  | ⟨1, _⟩ =>
    show ((cfg0 a).win 3).index t (1 : Fin 3) * 256 ≤ (i 1).val ∧ (i 1).val < ((cfg0 a).win 3).index t (1 : Fin 3) * 256 + 256
    rw [hidx]; simp; omega
  | ⟨2, _⟩ =>
    show ((cfg0 a).win 3).index t (2 : Fin 3) * 2048 ≤ (i 2).val ∧ (i 2).val < ((cfg0 a).win 3).index t (2 : Fin 3) * 2048 + 2048
    rw [hidx]; simp; omega

end AnyTables

/-! ## At the tables the program computes -/

variable (m : (ℓ : Loc nD τ sig) → Buf (Elt Ideal) ℓ) (ρ : Dev nD → PrngReg)

/-- The expert of sample j: the one its category word selects. -/
def expertOf (j : Fin 64) : Fin 16 := Cert.Spec.expert (cats m (Shape.Idx.ofFin j))

/-- The first table spells the sort's permutation, -/
theorem spells_perm (i : Fin 64) : (tab0 m (Shape.Idx.ofFin i)).toNat = (perm m i).val := by
  rw [tbl0_apply, BitVec.toNat_ofNat]
  have := (perm m i).isLt
  omega
/-- and the second the experts of the samples in sorted order. -/
theorem spells_expert (i : Fin 64) : (tab1 m (Shape.Idx.ofFin i)).toNat = (expertOf m (perm m i)).val := by
  rw [tbl1_apply, clipped_toNat]
  rfl

/-- WHAT POINT t WRITES BACK is block t of the result of the arrays the region finds. -/
theorem flushed_eq (c : Dev nD) (t : Fin (cfgM m (ok m)).N) :
    (dats m (ok m) 0 c).flushed 3 t = (((cfgM m (ok m)).win 3).blk t).view.read (Elt Ideal)
      (result (expertOf m) (V m c main_v9) (V m c main_arg2) (V m c main_v10)) := by
  funext y
  show (dats m (ok m) 0 c).after 3 t (((cfgM m (ok m)).win 3).xinj ((cfgM m (ok m)).grid.coords t) y)
    = result (expertOf m) (V m c main_v9) (V m c main_arg2) (V m c main_v10) ((((cfgM m (ok m)).win 3).blk t).view.emb y)
  rw [after0_3]
  refine (congrFun (show outsAt0 m (ok m) c t
      = k0_pay1 (F := Ideal) (iblk m (ok m) c 0 t) (iblk m (ok m) c 1 t) (iblk m (ok m) c 2 t) from
    out_eq (F := Ideal) c (grid0.coords t) (ms0_0 m (ok m) t) (hs0_0 m (ok m) t) (ms0_1 m (ok m) t) (hs0_1 m (ok m) t)
      (ms0_2 m (ok m) t) (hs0_2 m (ok m) t) (ms0_3 m (ok m) t) (hs0_3 m (ok m) t)
      (iblk m (ok m) c 0 t) (iblk m (ok m) c 1 t) (iblk m (ok m) c 2 t) (tbl m 0) (tbl m 1)) _).trans ?_
  exact point_eq (adm m (ok m)) (tbl m) rfl (perm m) (expertOf m) (spells_perm m) (spells_expert m)
    (V m c main_v9) (V m c main_arg2) (V m c main_v10) t _

/-- THE RESULT ARRAY after the run. -/
theorem final (c : Dev nD) : (dats m (ok m) 0 c).arrAt 3 (cfgM m (ok m)).N
    = result (expertOf m) (V m c main_v9) (V m c main_arg2) (V m c main_v10) :=
  (dats m (ok m) 0 c).arrAt_eq_of_cover 3 _ (fun t _ => flushed_eq m c t)
    (cover3 (adm m (ok m)) (tbl m) rfl (perm m) (perm_injective m) (perm_surjective m) (spells_perm m))

/-! ## The arrays the region finds are the launch arrays -/

/-- x narrowed to the two-byte format is x: on the extended reals a change of format is the identity. -/
theorem V_x (c : Dev nD) (j : S64x256x1024.Idx) : V m c main_v9 j = m ((c : Thread nD τ).loc main_arg0) j := by
  have e : (V m c main_v9 : S64x256x1024.Idx → EReal)
      = truncf (F := Ideal) .bf16 (m ((c : Thread nD τ).loc main_arg0) : FVec Ideal S64x256x1024 .f32) bitsLt_bf16_f32 := by
    dsimp only [V]
    simp only [hostOps0, hostOps0_1, hostOps0_2, hostOps0_3, List.flatten_cons, List.flatten_nil, List.append_nil, List.cons_append, List.nil_append]
    after_results_simp <;> try rfl
  rw [e]
  rfl

/-- The bias as [16, 1, 4096] at (e, 0, n) is the bias at (e, n). -/
theorem V_b (c : Dev nD) (e : Fin 16) (n : Fin 4096) :
    V m c main_v10 (ix3 e (0 : Fin 1) n) = m ((c : Thread nD τ).loc main_arg3) (ix2 e n) := by
  have h : (V m c main_v10 : S16x1x4096.Idx → EReal)
      = shapeCast S16x1x4096 (m ((c : Thread nD τ).loc main_arg3) : S16x4096.Idx → EReal) shapeCasts_S16x4096_S16x1x4096 := by
    dsimp only [V]
    simp only [hostOps0, hostOps0_1, hostOps0_2, hostOps0_3, List.flatten_cons, List.flatten_nil, List.append_nil, List.cons_append, List.nil_append]
    after_results_simp <;> try rfl
  rw [h]
  exact shapeCast_apply _ _ (ix3 e (0 : Fin 1) n) (ix2 e n) (by
    rw [Shape.rowMajor_val_two, Shape.rowMajor_val_three]; show e.val * 4096 + n.val = (e.val * 1 + 0) * 4096 + n.val; omega)

/-- The result of arrays that are, entry by entry, the launch arrays (the bias laid out as [16, 1, 4096]) is the
    specification of the launch arrays, when ε is the expert each sample's category word selects. -/
theorem result_eq_moe_of (ε : Fin 64 → Fin 16) (X X' : S64x256x1024.Idx → EReal) (W W' : S16x1024x4096.Idx → EReal)
    (B : S16x1x4096.Idx → EReal) (cat : S64.Idx → BitVec 32) (b : S16x4096.Idx → EReal)
    (hX : ∀ j, X j = X' j) (hW : W = W') (hB : ∀ (e : Fin 16) (n : Fin 4096), B (ix3 e (0 : Fin 1) n) = b (ix2 e n))
    (hε : ∀ j : Fin 64, ε j = Cert.Spec.expert (cat (ix1 j))) :
    result ε X W B = Cert.Spec.moe X' cat W' b := by
  subst hW
  funext i
  obtain ⟨j, s, n, rfl⟩ : ∃ (j : Fin 64) (s : Fin 256) (n : Fin 4096), i = ix3 j s n := ⟨i 0, i 1, i 2, eq_ix3 i⟩
  show (∑ k : Fin 1024, X (ix3 j s k) * W (ix3 (ε j) k n)) + B (ix3 (ε j) (0 : Fin 1) n)
    = (∑ k : Fin 1024, X' (ix3 j s k) * W (ix3 (Cert.Spec.expert (cat (ix1 j))) k n))
      + b (ix2 (Cert.Spec.expert (cat (ix1 j))) n)
  rw [hε, hB]
  simp only [hX]

/-- The result of the arrays the region finds is the specification of the launch arrays. -/
theorem result_eq_moe (c : Dev nD) :
    result (expertOf m) (V m c main_v9) (V m c main_arg2) (V m c main_v10)
      = Cert.Spec.moe (m ((c : Thread nD τ).loc main_arg0)) (m ((c : Thread nD τ).loc main_arg1))
          (m ((c : Thread nD τ).loc main_arg2)) (m ((c : Thread nD τ).loc main_arg3)) := by
  obtain rfl : c = 0 := Subsingleton.elim _ _
  exact result_eq_moe_of (expertOf m) (V m 0 main_v9) (m (((0 : Dev nD) : Thread nD τ).loc main_arg0))
    (V m 0 main_arg2) (m (((0 : Dev nD) : Thread nD τ).loc main_arg2)) (V m 0 main_v10)
    (m (((0 : Dev nD) : Thread nD τ).loc main_arg1)) (m (((0 : Dev nD) : Thread nD τ).loc main_arg3))
    (V_x m 0) (V_main_arg2 m 0) (V_b m 0)
    (fun j => congrArg Cert.Spec.expert (congrArg (m (((0 : Dev nD) : Thread nD τ).loc main_arg1))
      (funext fun d => by match d with | ⟨0, _⟩ => rfl)))

/-! ## The run, with the result named -/

/-- Every weakly fair execution of the kernel's program terminates with the result array holding the specification of
    the launch arrays, and those unchanged. -/
theorem run : θ_run defs (onTc (τ := τ) (main (F := Ideal))) ⟨m, fun _ => 0, ρ⟩ fun r => ∀ c : Dev nD,
      r.2.mem ((c.tc : Thread nD τ).loc main_v11)
        = Cert.Spec.moe (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have H := run_main m ρ (ok m)
  refine (θ_run defs _ _).mono (fun r hq c => ?_) H
  refine ⟨((hq c).1 3).trans ((final m c).trans (result_eq_moe m c)), ?_, ?_, ?_, ?_⟩
  · exact ((hq c).2 main_arg0 (by decide : main_arg0 ∈ Pipeline.restRefs sig spec0)).trans (V_main_arg0 m c)
  · exact ((hq c).2 main_arg1 (by decide : main_arg1 ∈ Pipeline.restRefs sig spec0)).trans (V_main_arg1 m c)
  · exact ((hq c).1 1).trans (((dats m (ok m) 0 c).arrAt_in 1 rfl _).trans ((A_eq m (ok m) c 1).trans (V_main_arg2 m c)))
  · exact ((hq c).2 main_arg3 (by decide : main_arg3 ∈ Pipeline.restRefs sig spec0)).trans (V_main_arg3 m c)

end Cert.KernelIdeal.KernelValue

end
-- ==== Proof.LibGather.lean ====
/-
  General lemma: the row gather (`table[idx]` over the rows of a rank-2 table, the row numbers an [M, 1] column), read
  at an index. Result row `e` is the table's row `min (max idx 0) (N - 1)`: the `e`-th start index read as a signed
  integer and clamped into the table.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx Idealize.ShloMosaic.StableHlo.Predicate

/-- The dimension numbers of a row gather: table [N, C], row numbers as an [M, 1] column, result [M, C]. -/
def rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather at result row `e`, column `l`: the table's row at the `e`-th start index, read signed and clamped
    into `[0, N - 1]`, at column `l`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (l : Fin C) :
    Host.gather (rowGatherDims N M C wf) x idx (ix2 e l)
      = x (ix2 ⟨min (idx (ixP e)).toInt.toNat (N - 1), by omega⟩ l) := by
  unfold Host.gather
  congr 1
  funext a
  refine Fin.ext ?_
  have h10 : ¬ ((1 : Fin 2) = 0) := by decide
  match a with
  | ⟨0, _⟩ =>
    -- axis 0 (the rows): collapsed and named by the start index map, so the coordinate is the clamped start alone
    show (rowGatherDims N M C wf).start (ix2 e l) idx 0 + (rowGatherDims N M C wf).batchCoord (ix2 e l) 0
        + (rowGatherDims N M C wf).offCoord (ix2 e l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    -- the start index is read at row e of the column: the result's batch axis 0 feeds the column's axis 0
    have hsi : (rowGatherDims N M C wf).siIdx (ix2 e l) ⟨List.idxOf (0 : Fin 2) (rowGatherDims N M C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (the columns): the one kept axis; not start-indexed, so start 0, and the offset coordinate is l
    show (rowGatherDims N M C wf).start (ix2 e l) idx 1 + (rowGatherDims N M C wf).batchCoord (ix2 e l) 1
        + (rowGatherDims N M C wf).offCoord (ix2 e l) 1 = l.val
    have h1s : (1 : Fin 2) ∉ (rowGatherDims N M C wf).startIndexMap := fun h => h10 (List.mem_singleton.mp h)
    have h1c : (1 : Fin 2) ∉ (rowGatherDims N M C wf).collapsedSliceDims := fun h => h10 (List.mem_singleton.mp h)
    have hs : (rowGatherDims N M C wf).start (ix2 e l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl

end Cert.LibGather

end
-- ==== Proof.LibGather3.lean ====
/-
  General lemma: the row gather over a rank-3 table (`table[idx]` over the leading axis of an [N, K, C] table, the row
  numbers an [M, 1] column), read at an index. Result slab `e` is the table's slab `min (max idx 0) (N - 1)`: the
  `e`-th start index read as a signed integer and clamped into the table; within the slab the two trailing
  coordinates are kept.
-/
import Idealize.ShloMosaic.PureOps.Ideal
import Idealize.ShloMosaic.Lib.ValueIdx
import Idealize.ShloMosaic.Lib.StableHlo.Predicate

noncomputable section

namespace Cert.LibGather3

open Idealize.ShloMosaic Idealize.ShloMosaic.ValueIdx Idealize.ShloMosaic.StableHlo.Predicate

/-- The dimension numbers of a slab gather: table [N, K, C], slab numbers as an [M, 1] column, result [M, K, C]. -/
def slabGatherDims (N M K C : Nat)
    (wf : GatherDims.WF ⟨3, ![N, K, C]⟩ ⟨2, ![M, 1]⟩ ⟨3, ![M, K, C]⟩ [1, 2] [0] [] [0] [] 1 ![1, K, C]) :
    GatherDims ⟨3, ![N, K, C]⟩ ⟨2, ![M, 1]⟩ ⟨3, ![M, K, C]⟩ where
  offsetDims := [1, 2]
  collapsedSliceDims := [0]
  operandBatchingDims := []
  startIndicesBatchingDims := []
  startIndexMap := [0]
  indexVectorDim := 1
  sliceSizes := ![1, K, C]
  wf := wf

/-- A slab gather at result slab `e`, row `k`, column `l`: the table's slab at the `e`-th start index, read signed
    and clamped into `[0, N - 1]`, at row `k` and column `l`. -/
theorem gather_slabs_apply {α : Type} {N M K C w : Nat} (hN : 0 < N)
    (wf : GatherDims.WF ⟨3, ![N, K, C]⟩ ⟨2, ![M, 1]⟩ ⟨3, ![M, K, C]⟩ [1, 2] [0] [] [0] [] 1 ![1, K, C])
    (x : (⟨3, ![N, K, C]⟩ : Shape).Idx → α) (idx : IVec ⟨2, ![M, 1]⟩ w) (e : Fin M) (k : Fin K) (l : Fin C) :
    Host.gather (slabGatherDims N M K C wf) x idx (ix3 e k l)
      = x (ix3 ⟨min (idx (ixP e)).toInt.toNat (N - 1), by omega⟩ k l) := by
  unfold Host.gather
  congr 1
  funext a
  refine Fin.ext ?_
  have h10 : ¬ ((1 : Fin 3) = 0) := by decide
  have h20 : ¬ ((2 : Fin 3) = 0) := by decide
  match a with
  | ⟨0, _⟩ =>
    -- axis 0 (the slabs): collapsed and named by the start index map, so the coordinate is the clamped start alone
    show (slabGatherDims N M K C wf).start (ix3 e k l) idx 0 + (slabGatherDims N M K C wf).batchCoord (ix3 e k l) 0
        + (slabGatherDims N M K C wf).offCoord (ix3 e k l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGatherDims N M K C wf).startIndexMap from List.mem_singleton.mpr rfl)]
    -- the start index is read at row e of the column: the result's batch axis 0 feeds the column's axis 0
    have hsi : (slabGatherDims N M K C wf).siIdx (ix3 e k l) ⟨List.idxOf (0 : Fin 3) (slabGatherDims N M K C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (rows within a slab): the first kept axis; not start-indexed, so start 0, and the offset coordinate is k
    show (slabGatherDims N M K C wf).start (ix3 e k l) idx 1 + (slabGatherDims N M K C wf).batchCoord (ix3 e k l) 1
        + (slabGatherDims N M K C wf).offCoord (ix3 e k l) 1 = k.val
    have h1s : (1 : Fin 3) ∉ (slabGatherDims N M K C wf).startIndexMap := fun h => h10 (List.mem_singleton.mp h)
    have h1c : (1 : Fin 3) ∉ (slabGatherDims N M K C wf).collapsedSliceDims := fun h => h10 (List.mem_singleton.mp h)
    have hs : (slabGatherDims N M K C wf).start (ix3 e k l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl
  | ⟨2, _⟩ =>
    -- axis 2 (columns): the second kept axis; start 0, and the offset coordinate is l
    show (slabGatherDims N M K C wf).start (ix3 e k l) idx 2 + (slabGatherDims N M K C wf).batchCoord (ix3 e k l) 2
        + (slabGatherDims N M K C wf).offCoord (ix3 e k l) 2 = l.val
    have h2s : (2 : Fin 3) ∉ (slabGatherDims N M K C wf).startIndexMap := fun h => h20 (List.mem_singleton.mp h)
    have h2c : (2 : Fin 3) ∉ (slabGatherDims N M K C wf).collapsedSliceDims := fun h => h20 (List.mem_singleton.mp h)
    have hs : (slabGatherDims N M K C wf).start (ix3 e k l) idx 2 = 0 := by
      unfold GatherDims.start
      rw [dif_neg h2s]
    rw [hs, GatherDims.batchCoord_eq_zero _ _ _ List.not_mem_nil]
    simp only [Nat.add_zero, Nat.zero_add]
    unfold GatherDims.offCoord
    rw [dif_pos ((GatherDims.mem_sKept _ _).mpr ⟨h2c, List.not_mem_nil⟩)]
    rfl

end Cert.LibGather3

end
-- ==== Proof.RefValue.lean ====
/-
  The reference computes the specification.

  Its program: the category words with 16 added where negative (counting from the end), as a column of start indices;
  the expert weights and the bias rows gathered at them (each start index read signed and clamped into 0 … 15); one
  batched product of x[j] with the gathered weights of sample j, contracting the 1024 axis; the gathered bias row
  added to every one of the 256 rows. Where every category word is non-negative nothing is added, so the gathered
  slab of sample j is that of `expert cat[j]`, and the result at (j, s, n) is the specification's
  (∑ k, x[j, s, k] · W[expert cat[j], k, n]) + b[expert cat[j], n].
-/
import proofs.«422944_j9809705304280_2_alg».proof.Proof.Gen.ReferenceIdeal.Read
import proofs.«422944_j9809705304280_2_alg».proof.Proof.Spec
import proofs.«422944_j9809705304280_2_alg».proof.Proof.LibGather
import proofs.«422944_j9809705304280_2_alg».proof.Proof.LibGather3

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate
open Cert.Spec

variable (cat : IVec S64 32)

/-- The start index of sample `j` for the weights: a non-negative category word is left as it is. -/
theorem start_W (hcat : ∀ j : Fin 64, IntOp.cmpi .sge (cat (ix1 j)) 0#32 = 1#1) (j : Fin 64) :
    val_main_v5 (F := Ideal) cat (ixP j) = cat (ix1 j) := by
  rw [val_main_v5_apply, val_main_v4_apply, val_main_v1_apply, val_main_v0_apply, val_main_c_apply]
  have e : idx_main_v5 (ixP j) = ix1 j := funext fun a => by match a with | ⟨0, _⟩ => rfl
  rw [e]
  exact if_neg (not_slt_zero _ (hcat j))

/-- The start index of sample `j` for the bias: the same word. -/
theorem start_b (hcat : ∀ j : Fin 64, IntOp.cmpi .sge (cat (ix1 j)) 0#32 = 1#1) (j : Fin 64) :
    val_main_v12 (F := Ideal) cat (ixP j) = cat (ix1 j) := by
  rw [val_main_v12_apply, val_main_v11_apply, val_main_v8_apply, val_main_v7_apply, val_main_c_1_apply]
  have e : idx_main_v12 (ixP j) = ix1 j := funext fun a => by match a with | ⟨0, _⟩ => rfl
  rw [e]
  exact if_neg (not_slt_zero _ (hcat j))

/-- The gathered weights of sample `j` are the weights of the expert its word selects. -/
theorem gathered_W (hcat : ∀ j : Fin 64, IntOp.cmpi .sge (cat (ix1 j)) 0#32 = 1#1)
    (W : FVec Ideal S16x1024x4096 .f32) (j : Fin 64) (k : Fin 1024) (n : Fin 4096) :
    val_main_v6 (F := Ideal) cat W (ix3 j k n) = W (ix3 (expert (cat (ix1 j))) k n) := by
  show Host.gather (Cert.LibGather3.slabGatherDims 16 64 1024 4096 gather_S16x1024x4096_S64x1_S64x1024x4096_12_0_n_n_0_1_110244096_wf)
    W (val_main_v5 (F := Ideal) cat) (ix3 j k n) = _
  rw [Cert.LibGather3.gather_slabs_apply (by decide)]
  exact congrArg (fun p : Fin 16 => W (ix3 p k n)) (Fin.ext (by
    show min (val_main_v5 (F := Ideal) cat (ixP j)).toInt.toNat (16 - 1) = min (cat (ix1 j)).toInt.toNat 15
    rw [start_W cat hcat j]))

/-- The gathered bias row of sample `j` is the bias row of the expert its word selects. -/
theorem gathered_b (hcat : ∀ j : Fin 64, IntOp.cmpi .sge (cat (ix1 j)) 0#32 = 1#1)
    (b : FVec Ideal S16x4096 .f32) (j : Fin 64) (n : Fin 4096) :
    val_main_v13 (F := Ideal) cat b (ix2 j n) = b (ix2 (expert (cat (ix1 j))) n) := by
  show Host.gather (Cert.LibGather.rowGatherDims 16 64 4096 gather_S16x4096_S64x1_S64x4096_1_0_n_n_0_1_14096_wf)
    b (val_main_v12 (F := Ideal) cat) (ix2 j n) = _
  rw [Cert.LibGather.gather_rows_apply (by decide)]
  exact congrArg (fun p : Fin 16 => b (ix2 p n)) (Fin.ext (by
    show min (val_main_v12 (F := Ideal) cat (ixP j)).toInt.toNat (16 - 1) = min (cat (ix1 j)).toInt.toNat 15
    rw [start_b cat hcat j]))

/-- THE REFERENCE'S RESULT is the specification, where every category word is non-negative. -/
theorem result_eq (hcat : ∀ j : Fin 64, IntOp.cmpi .sge (cat (ix1 j)) 0#32 = 1#1)
    (x : FVec Ideal S64x256x1024 .f32) (W : FVec Ideal S16x1024x4096 .f32) (b : FVec Ideal S16x4096 .f32) :
    val_main_v17 (F := Ideal) x cat W b = moe x cat W b := by
  funext i
  obtain ⟨j, s, n, rfl⟩ : ∃ (j : Fin 64) (s : Fin 256) (n : Fin 4096), i = ix3 j s n := ⟨i 0, i 1, i 2, eq_ix3 i⟩
  rw [val_main_v17_apply, val_main_v14_apply, val_main_v16_apply, val_main_v15_apply]
  have eb : idx_main_v15 (idx_main_v16 (ix3 j s n)) = ix2 j n := funext fun a => by
    match a with | ⟨0, _⟩ => rfl | ⟨1, _⟩ => rfl
  have el : ∀ k : Fin 1024, lidx_main_v14 (ix3 j s n) k = ix3 j s k := fun k => funext fun a => by
    match a with | ⟨0, _⟩ => rfl | ⟨1, _⟩ => rfl | ⟨2, _⟩ => rfl
  have er : ∀ k : Fin 1024, ridx_main_v14 (ix3 j s n) k = ix3 j k n := fun k => funext fun a => by
    match a with | ⟨0, _⟩ => rfl | ⟨1, _⟩ => rfl | ⟨2, _⟩ => rfl
  rw [eb, gathered_b cat hcat b j n]
  simp only [el, er, gathered_W cat hcat W j]
  rfl

end Cert.ReferenceIdeal.RefValue

end
-- ==== Proof.PreDecode.lean ====
/-
  The precondition, read for the category words.

  The precondition says: every entry of x, W and b is finite, and every category word is at least 0 and below 16. It is
  printed as one conjunction of "all" reductions; the last conjunct reduces, over the 64 samples, the conjunction of
  the two comparisons. Where the whole is 1, every sample's two comparisons are 1; the certificate uses the first:
  no category word is negative. (Finiteness is not used: both programs compute the same sums term for term.)
-/
import proofs.«422944_j9809705304280_2_alg».proof.Pre_finite_inputs
import proofs.«422944_j9809705304280_2_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen
open Idealize.ShloMosaic Idealize.ShloMosaic.ValueIdx

/-- The scalar shape has one index. -/
instance : Subsingleton S_.Idx := ⟨fun a b => funext fun d => d.elim0⟩

/-- Under the precondition every category word is non-negative. -/
theorem cat_nonneg {F : FTy → Type} [FloatOps F] (x : FVec F S64x256x1024 .f32) (cat : IVec S64 32)
    (W : FVec F S16x1024x4096 .f32) (b : FVec F S16x4096 .f32)
    (h : fn (F := F) x cat W b = fun _ => 1#1) (j : S64.Idx) : IntOp.cmpi .sge (cat j) 0#32 = 1#1 := by
  have e := congrFun h ix0
  unfold fn fn_part1 at e
  dsimp only at e
  obtain ⟨-, e19⟩ := IntOp.andi_eq_one.1 e
  have e18 := Host.reduce_andi_all _ _ _ _ ix0 e19 j
  exact (IntOp.andi_eq_one.1 e18).1

end Cert.Pre_finite_inputs.Decode

end
-- ==== Proof.lean ====
/-
  A mixture-of-experts linear layer: 64 samples x[j] (256 × 1024 each), a category word per sample, 16 experts with
  weights W[e] (1024 × 4096) and a bias row b[e]. Over the extended reals both programs compute

      out[j, s, n] = (∑ k < 1024, x[j, s, k] · W[e j, k, n]) + b[e j, n],    e j = the expert cat[j] selects,

  under the precondition that every float input is finite and every category word lies in 0 … 15.

  The reference gathers W[cat] and b[cat] (a word below 0 would be counted from the end of the table: excluded by the
  precondition), multiplies sample by sample and adds the bias row to every row.

  The kernel clamps the words into 0 … 15, sorts the samples stably by clamped word, and walks a 2 × 64 grid: at point
  (h, i) it multiplies the sample at sorted position i by the half h of its expert's weights and adds the matching
  half of the bias row, writing the half h of that sample's output. The sort only reorders the work: all that matters
  is that it is a bijection of the samples, so that every output block is written exactly once; within the range
  0 … 15 the clamp changes nothing. Changes of float format (x and W narrowed to two bytes for the product) are the
  identity on the extended reals, and the product accumulates from zero, so each entry is the very sum above, term
  for term: no law of the extended reals is needed and finiteness is not used.

  Both tables the kernel's index maps read are in range whatever the category words are (a position is below 64, a
  clamped word at most 15), which is what the kernel's frames ask; the idealization rewrote nothing.
-/
import proofs.«422944_j9809705304280_2_alg».proof.Defs
import proofs.«422944_j9809705304280_2_alg».proof.Proof.Gen.Kernel
import proofs.«422944_j9809705304280_2_alg».proof.Proof.Gen.Kernel.Skeleton
import proofs.«422944_j9809705304280_2_alg».proof.Proof.Gen.Kernel.Launch
import proofs.«422944_j9809705304280_2_alg».proof.Proof.Gen.Kernel.Points
import proofs.«422944_j9809705304280_2_alg».proof.Proof.Gen.Kernel.Frame
import proofs.«422944_j9809705304280_2_alg».proof.Proof.Gen.KernelIdeal
import proofs.«422944_j9809705304280_2_alg».proof.Proof.Gen.KernelIdeal.Skeleton
import proofs.«422944_j9809705304280_2_alg».proof.Proof.Gen.KernelIdeal.Launch
import proofs.«422944_j9809705304280_2_alg».proof.Proof.Gen.KernelIdeal.Points
import proofs.«422944_j9809705304280_2_alg».proof.Proof.Gen.KernelIdeal.Frame
import proofs.«422944_j9809705304280_2_alg».proof.Proof.Gen.ReferenceIdeal
import proofs.«422944_j9809705304280_2_alg».proof.Proof.Gen.Pre_finite_inputs
import proofs.«422944_j9809705304280_2_alg».proof.Proof.Gen.ReferenceIdeal.Run
import proofs.«422944_j9809705304280_2_alg».proof.Proof.Gen.ReferenceIdeal.Read
import proofs.«422944_j9809705304280_2_alg».proof.Proof.Tables
import proofs.«422944_j9809705304280_2_alg».proof.Proof.TablesKernel
import proofs.«422944_j9809705304280_2_alg».proof.Proof.KernelValue
import proofs.«422944_j9809705304280_2_alg».proof.Proof.RefValue
import proofs.«422944_j9809705304280_2_alg».proof.Proof.PreDecode
import Idealize.ShloMosaic.Adequacy
import Idealize.ShloMosaic.Init

noncomputable section

namespace Cert.Proof

open Idealize.ShloMosaic Idealize.ShloMosaic.ValueIdx Idealize.SL.Sem

/-- The word-level kernel runs and leaves its arguments: its tables are in range for every input. -/
theorem frame_k : Cert.frame_Kernel := fun m ρ _ => Cert.Kernel.Gen.frame m ρ (Cert.Kernel.Tables.ok m)

/-- So does the idealized kernel. -/
theorem frame_ki : Cert.frame_KernelIdeal := fun m ρ _ => Cert.KernelIdeal.Gen.frame m ρ (Cert.KernelIdeal.Tables.ok m)

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the same function of the
    arguments: the kernel by its run read block by block, the reference by its run read operation by operation, the
    category words non-negative by the precondition. -/
theorem algebraic : Cert.algebraic_KernelIdeal_ReferenceIdeal := by
  intro m ρ m' ρ' hpre hagree
  refine ⟨fun c => Cert.Spec.moe
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, (hagree c).1, (hagree c).2.1, (hagree c).2.2.1, (hagree c).2.2.2]
  exact Cert.ReferenceIdeal.RefValue.result_eq _
    (fun j => Cert.Pre_finite_inputs.Decode.cat_nonneg _ _ _ _ (hpre c) (ix1 j)) _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
